-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S90000x758 : Shape := ⟨2, ![90000, 758]⟩
abbrev S90000x10 : Shape := ⟨2, ![90000, 10]⟩
abbrev S758x10 : Shape := ⟨2, ![758, 10]⟩
abbrev S758 : Shape := ⟨1, ![758]⟩
abbrev S768x95000 : Shape := ⟨2, ![768, 95000]⟩
abbrev S_ : Shape := ⟨0, ![]⟩

class Facts : Prop where
  bcast_S_S90000x758 : S_.BroadcastsInDim S90000x758 (![] : Fin 0 → Fin S90000x758.rank)
  reducesTo_S90000x758_S_d0_1 : S90000x758.ReducesTo [0, 1] S_
  h_S_ : 0 < S_.numel
  bcast_S_S90000x10 : S_.BroadcastsInDim S90000x10 (![] : Fin 0 → Fin S90000x10.rank)
  reducesTo_S90000x10_S_d0_1 : S90000x10.ReducesTo [0, 1] S_
  bcast_S_S758x10 : S_.BroadcastsInDim S758x10 (![] : Fin 0 → Fin S758x10.rank)
  reducesTo_S758x10_S_d0_1 : S758x10.ReducesTo [0, 1] S_
  bcast_S_S758 : S_.BroadcastsInDim S758 (![] : Fin 0 → Fin S758.rank)
  reducesTo_S758_S_d0 : S758.ReducesTo [0] S_
  bcast_S_S768x95000 : S_.BroadcastsInDim S768x95000 (![] : Fin 0 → Fin S768x95000.rank)
  reducesTo_S768x95000_S_d0_1 : S768x95000.ReducesTo [0, 1] S_

variable [Facts]

def fn_part1 {F : FTy → Type} [FloatOps F] (main_arg5 : FVec F S768x95000 .f32) (main_v13 : IVec S_ 1) (main_v16 : IVec S758 1) : IVec S_ 1 :=
  let main_c_5 : IVec S_ 1 := constantI S_ 1 1#1
  let main_v17 : IVec S_ 1 := (fun x v => Host.reduce IntOp.andi x v reducesTo_S758_S_d0 h_S_) main_v16 main_c_5
  let main_v18 : IVec S_ 1 := andi main_v13 main_v17
  let main_v19 : FVec F S768x95000 .f32 := Host.absf main_arg5
  let main_cst_6 : FVec F S_ .f32 := constant S_ .f32 0x7F800000#32
  let main_v20 : FVec F S768x95000 .f32 := broadcastInDim S768x95000 ![] bcast_S_S768x95000 main_cst_6
  let main_v21 : IVec S768x95000 1 := cmpf .olt main_v19 main_v20
  let main_c_7 : IVec S_ 1 := constantI S_ 1 1#1
  let main_v22 : IVec S_ 1 := (fun x v => Host.reduce IntOp.andi x v reducesTo_S768x95000_S_d0_1 h_S_) main_v21 main_c_7
  let main_v23 : IVec S_ 1 := andi main_v18 main_v22
  main_v23

def fn {F : FTy → Type} [FloatOps F] (main_arg0 : IVec S1024 32) (main_arg1 : FVec F S90000x758 .f32) (main_arg2 : FVec F S90000x10 .f32) (main_arg3 : FVec F S758x10 .f32) (main_arg4 : FVec F S758 .f32) (main_arg5 : FVec F S768x95000 .f32) : IVec S_ 1 :=
  let main_v0 : FVec F S90000x758 .f32 := Host.absf main_arg1
  let main_cst : FVec F S_ .f32 := constant S_ .f32 0x7F800000#32
  let main_v1 : FVec F S90000x758 .f32 := broadcastInDim S90000x758 ![] bcast_S_S90000x758 main_cst
  let main_v2 : IVec S90000x758 1 := cmpf .olt main_v0 main_v1
  let main_c : IVec S_ 1 := constantI S_ 1 1#1
  let main_v3 : IVec S_ 1 := (fun x v => Host.reduce IntOp.andi x v reducesTo_S90000x758_S_d0_1 h_S_) main_v2 main_c
  let main_v4 : FVec F S90000x10 .f32 := Host.absf main_arg2
  let main_cst_0 : FVec F S_ .f32 := constant S_ .f32 0x7F800000#32
  let main_v5 : FVec F S90000x10 .f32 := broadcastInDim S90000x10 ![] bcast_S_S90000x10 main_cst_0
  let main_v6 : IVec S90000x10 1 := cmpf .olt main_v4 main_v5
  let main_c_1 : IVec S_ 1 := constantI S_ 1 1#1
  let main_v7 : IVec S_ 1 := (fun x v => Host.reduce IntOp.andi x v reducesTo_S90000x10_S_d0_1 h_S_) main_v6 main_c_1
  let main_v8 : IVec S_ 1 := andi main_v3 main_v7
  let main_v9 : FVec F S758x10 .f32 := Host.absf main_arg3
  let main_cst_2 : FVec F S_ .f32 := constant S_ .f32 0x7F800000#32
  let main_v10 : FVec F S758x10 .f32 := broadcastInDim S758x10 ![] bcast_S_S758x10 main_cst_2
  let main_v11 : IVec S758x10 1 := cmpf .olt main_v9 main_v10
  let main_c_3 : IVec S_ 1 := constantI S_ 1 1#1
  let main_v12 : IVec S_ 1 := (fun x v => Host.reduce IntOp.andi x v reducesTo_S758x10_S_d0_1 h_S_) main_v11 main_c_3
  let main_v13 : IVec S_ 1 := andi main_v8 main_v12
  let main_v14 : FVec F S758 .f32 := Host.absf main_arg4
  let main_cst_4 : FVec F S_ .f32 := constant S_ .f32 0x7F800000#32
  let main_v15 : FVec F S758 .f32 := broadcastInDim S758 ![] bcast_S_S758 main_cst_4
  let main_v16 : IVec S758 1 := cmpf .olt main_v14 main_v15
  fn_part1 (F := F) main_arg5 main_v13 main_v16
-- ==== Kernel.lean ====
abbrev S1024 : Shape := ⟨1, ![1024]⟩
abbrev S90000x758 : Shape := ⟨2, ![90000, 758]⟩
abbrev S90000x10 : Shape := ⟨2, ![90000, 10]⟩
abbrev S758x10 : Shape := ⟨2, ![758, 10]⟩
abbrev S758 : Shape := ⟨1, ![758]⟩
abbrev S768x95000 : Shape := ⟨2, ![768, 95000]⟩
abbrev S_ : Shape := ⟨0, ![]⟩
abbrev S1024x1 : Shape := ⟨2, ![1024, 1]⟩
abbrev S1024x758 : Shape := ⟨2, ![1024, 758]⟩
abbrev S1024x10 : Shape := ⟨2, ![1024, 10]⟩
abbrev S10x758 : Shape := ⟨2, ![10, 758]⟩
abbrev S1x758 : Shape := ⟨2, ![1, 758]⟩
abbrev S1024x768 : Shape := ⟨2, ![1024, 768]⟩
abbrev S1024x95000 : Shape := ⟨2, ![1024, 95000]⟩
abbrev S768x1536 : Shape := ⟨2, ![768, 1536]⟩
abbrev S1024x1536 : Shape := ⟨2, ![1024, 1536]⟩

abbrev nBuf : Space → Nat
  | .hbm => 35
  | .vmem => 5
  | .smem => 0
  | _ => 0

abbrev bufTy : (tb : Table) → Fin (tcTables nBuf tb) → BufTy
  | .hbm, ⟨0, _⟩ => ⟨S1024, .i32⟩
  | .hbm, ⟨1, _⟩ => ⟨S90000x758, .f32⟩
  | .hbm, ⟨2, _⟩ => ⟨S90000x10, .f32⟩
  | .hbm, ⟨3, _⟩ => ⟨S758x10, .f32⟩
  | .hbm, ⟨4, _⟩ => ⟨S758, .f32⟩
  | .hbm, ⟨5, _⟩ => ⟨S768x95000, .f32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1024x758, .f32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S1024x10, .f32⟩
  | .hbm, ⟨24, _⟩ => ⟨S10x758, .f32⟩
  | .hbm, ⟨25, _⟩ => ⟨S1024x758, .f32⟩
  | .hbm, ⟨26, _⟩ => ⟨S1x758, .f32⟩
  | .hbm, ⟨27, _⟩ => ⟨S1024x758, .f32⟩
  | .hbm, ⟨28, _⟩ => ⟨S1024x758, .f32⟩
  | .hbm, ⟨29, _⟩ => ⟨S1024x758, .f32⟩
  | .hbm, ⟨30, _⟩ => ⟨S_, .f32⟩
  | .hbm, ⟨31, _⟩ => ⟨S1024x10, .f32⟩
  | .hbm, ⟨32, _⟩ => ⟨S1024x768, .f32⟩
  | .hbm, ⟨33, _⟩ => ⟨S1024x768, .bf16⟩
  | .hbm, ⟨34, _⟩ => ⟨S1024x95000, .f32⟩
  | .local _ .vmem, ⟨0, _⟩ => ⟨S1024x768, .bf16⟩
  | .local _ .vmem, ⟨1, _⟩ => ⟨S768x1536, .f32⟩
  | .local _ .vmem, ⟨2, _⟩ => ⟨S768x1536, .f32⟩
  | .local _ .vmem, ⟨3, _⟩ => ⟨S1024x1536, .f32⟩
  | .local _ .vmem, ⟨4, _⟩ => ⟨S1024x1536, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  transposes_S758x10_S10x758_1_0 : S758x10.Transposes [1, 0] S10x758
  bcast_S758_S1x758_1 : S758.BroadcastsInDim S1x758 (![1] : Fin 1 → Fin S1x758.rank)
  bcast_S1x758_S1024x758_0_1 : S1x758.BroadcastsInDim S1024x758 (![0, 1] : Fin 2 → Fin S1024x758.rank)
  bcast_S_S1024x10 : S_.BroadcastsInDim S1024x10 (![] : Fin 0 → Fin S1024x10.rank)
  concatenates_S1024x758_S1024x10_S1024x768_d1 : Shape.Concatenates [S1024x758, S1024x10] S1024x768 1
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x1536_S768x1536_0_0 : ∀ a, (![0, 0] : Fin 2 → Nat) a + S768x1536.size a ≤ S768x1536.size a
  h_S768x1536 : 0 < S768x1536.numel
  inb_S1024x1536_S1024x1536_0_0 : ∀ a, (![0, 0] : Fin 2 → Nat) a + S1024x1536.size a ≤ S1024x1536.size a
  h_S1024x1536 : 0 < S1024x1536.numel
  gather_S90000x758_S1024x1_S1024x758_1_0_n_n_0_1_1758_wf : GatherDims.WF S90000x758 S1024x1 S1024x758 [1] [0] [] [0] [] 1 ![1, 758]
  gather_S90000x10_S1024x1_S1024x10_1_0_n_n_0_1_110_wf : GatherDims.WF S90000x10 S1024x1 S1024x10 [1] [0] [] [0] [] 1 ![1, 10]
  dot_S1024x10_S10x758_S1024x758_1_0_0_1_n_n_wf : DotDims.WF S1024x10 S10x758 S1024x758 [1] [0] [0] [1] [] []
  dot_S1024x768_S768x1536_S1024x1536_1_0_0_1_n_n_wf : DotDims.WF S1024x768 S768x1536 S1024x1536 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S1024x768.size a
  hwx0_0 : ∀ i : grid0.Coords, EltTy.bits .bf16 = 32 ∨ (Rect.block (s := S1024x768) S1024x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S768x1536.size a < S768x95000.size a
  hwx0_1 : ∀ i : grid0.Coords, EltTy.bits .f32 = 32 ∨ (Rect.unit (s := S768x95000) (fun a => cc0_transform_1 i a * S768x1536.size a) (fun a => (Pipeline.Clip.of (cc0_transform_1 i a) (S768x1536.size a) (S768x95000.size a)).extent (S768x1536.size a)) fun a => Pipeline.Clip.inb (Pipeline.Clip.ok_of (hstart0_1 i a))).WholeWords (EltTy.packing .f32)
  hwxs0_1 : ∀ i : grid0.Coords, EltTy.bits .f32 = 32 ∨ (Rect.unit (s := S768x1536) (fun _ => 0) (fun a => (Pipeline.Clip.of (cc0_transform_1 i a) (S768x1536.size a) (S768x95000.size a)).extent (S768x1536.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x1536.size a < S1024x95000.size a
  hwx0_2 : ∀ i : grid0.Coords, EltTy.bits .f32 = 32 ∨ (Rect.unit (s := S1024x95000) (fun a => cc0_transform_2 i a * S1024x1536.size a) (fun a => (Pipeline.Clip.of (cc0_transform_2 i a) (S1024x1536.size a) (S1024x95000.size a)).extent (S1024x1536.size a)) fun a => Pipeline.Clip.inb (Pipeline.Clip.ok_of (hstart0_2 i a))).WholeWords (EltTy.packing .f32)
  hwxs0_2 : ∀ i : grid0.Coords, EltTy.bits .f32 = 32 ∨ (Rect.unit (s := S1024x1536) (fun _ => 0) (fun a => (Pipeline.Clip.of (cc0_transform_2 i a) (S1024x1536.size a) (S1024x95000.size a)).extent (S1024x1536.size a)) fun a => (Nat.zero_add _).trans_le (Pipeline.Clip.extent_le (Pipeline.Clip.ok_of (hstart0_2 i a)))).WholeWords (EltTy.packing .f32)

variable [Facts₀]

def gather_S90000x758_S1024x1_S1024x758_1_0_n_n_0_1_1758 : GatherDims S90000x758 S1024x1 S1024x758 where
  offsetDims := [1]
  collapsedSliceDims := [0]
  operandBatchingDims := []
  startIndicesBatchingDims := []
  startIndexMap := [0]
  indexVectorDim := 1
  sliceSizes := ![1, 758]
  wf := gather_S90000x758_S1024x1_S1024x758_1_0_n_n_0_1_1758_wf
def gather_S90000x10_S1024x1_S1024x10_1_0_n_n_0_1_110 : GatherDims S90000x10 S1024x1 S1024x10 where
  offsetDims := [1]
  collapsedSliceDims := [0]
  operandBatchingDims := []
  startIndicesBatchingDims := []
  startIndexMap := [0]
  indexVectorDim := 1
  sliceSizes := ![1, 10]
  wf := gather_S90000x10_S1024x1_S1024x10_1_0_n_n_0_1_110_wf
def dot_S1024x10_S10x758_S1024x758_1_0_0_1_n_n : DotDims S1024x10 S10x758 S1024x758 where
  lhsContracting := [1]
  rhsContracting := [0]
  lhsNonContracting := [0]
  rhsNonContracting := [1]
  lhsBatch := []
  rhsBatch := []
  wf := dot_S1024x10_S10x758_S1024x758_1_0_0_1_n_n_wf
def dot_S1024x768_S768x1536_S1024x1536_1_0_0_1_n_n : DotDims S1024x768 S768x1536 S1024x1536 where
  lhsContracting := [1]
  rhsContracting := [0]
  lhsNonContracting := [0]
  rhsNonContracting := [1]
  lhsBatch := []
  rhsBatch := []
  wf := dot_S1024x768_S768x1536_S1024x1536_1_0_0_1_n_n_wf

abbrev win0_0 : Pipeline.Window sig grid0 :=
  Pipeline.Window.ofSpec (Memref.whole main_v22) S1024x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg5) S768x1536.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v23) S1024x1536.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024 : Shape := ⟨1, ![1024]⟩
abbrev S90000x758 : Shape := ⟨2, ![90000, 758]⟩
abbrev S90000x10 : Shape := ⟨2, ![90000, 10]⟩
abbrev S758x10 : Shape := ⟨2, ![758, 10]⟩
abbrev S758 : Shape := ⟨1, ![758]⟩
abbrev S768x95000 : Shape := ⟨2, ![768, 95000]⟩
abbrev S_ : Shape := ⟨0, ![]⟩
abbrev S1024x1 : Shape := ⟨2, ![1024, 1]⟩
abbrev S1024x758 : Shape := ⟨2, ![1024, 758]⟩
abbrev S1024x10 : Shape := ⟨2, ![1024, 10]⟩
abbrev S10x758 : Shape := ⟨2, ![10, 758]⟩
abbrev S1x758 : Shape := ⟨2, ![1, 758]⟩
abbrev S1024x768 : Shape := ⟨2, ![1024, 768]⟩
abbrev S1024x95000 : Shape := ⟨2, ![1024, 95000]⟩

abbrev nBuf : Space → Nat
  | .hbm => 34
  | .vmem => 0
  | .smem => 0
  | _ => 0

abbrev bufTy : (tb : Table) → Fin (tcTables nBuf tb) → BufTy
  | .hbm, ⟨0, _⟩ => ⟨S1024, .i32⟩
  | .hbm, ⟨1, _⟩ => ⟨S90000x758, .f32⟩
  | .hbm, ⟨2, _⟩ => ⟨S90000x10, .f32⟩
  | .hbm, ⟨3, _⟩ => ⟨S758x10, .f32⟩
  | .hbm, ⟨4, _⟩ => ⟨S758, .f32⟩
  | .hbm, ⟨5, _⟩ => ⟨S768x95000, .f32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1024x758, .f32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S1024x10, .f32⟩
  | .hbm, ⟨24, _⟩ => ⟨S10x758, .f32⟩
  | .hbm, ⟨25, _⟩ => ⟨S1024x758, .f32⟩
  | .hbm, ⟨26, _⟩ => ⟨S1x758, .f32⟩
  | .hbm, ⟨27, _⟩ => ⟨S1024x758, .f32⟩
  | .hbm, ⟨28, _⟩ => ⟨S1024x758, .f32⟩
  | .hbm, ⟨29, _⟩ => ⟨S1024x758, .f32⟩
  | .hbm, ⟨30, _⟩ => ⟨S_, .f32⟩
  | .hbm, ⟨31, _⟩ => ⟨S1024x10, .f32⟩
  | .hbm, ⟨32, _⟩ => ⟨S1024x768, .f32⟩
  | .hbm, ⟨33, _⟩ => ⟨S1024x95000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  transposes_S758x10_S10x758_1_0 : S758x10.Transposes [1, 0] S10x758
  bcast_S758_S1x758_1 : S758.BroadcastsInDim S1x758 (![1] : Fin 1 → Fin S1x758.rank)
  bcast_S1x758_S1024x758_0_1 : S1x758.BroadcastsInDim S1024x758 (![0, 1] : Fin 2 → Fin S1024x758.rank)
  bcast_S_S1024x10 : S_.BroadcastsInDim S1024x10 (![] : Fin 0 → Fin S1024x10.rank)
  concatenates_S1024x758_S1024x10_S1024x768_d1 : Shape.Concatenates [S1024x758, S1024x10] S1024x768 1
  gather_S90000x758_S1024x1_S1024x758_1_0_n_n_0_1_1758_wf : GatherDims.WF S90000x758 S1024x1 S1024x758 [1] [0] [] [0] [] 1 ![1, 758]
  gather_S90000x10_S1024x1_S1024x10_1_0_n_n_0_1_110_wf : GatherDims.WF S90000x10 S1024x1 S1024x10 [1] [0] [] [0] [] 1 ![1, 10]
  dot_S1024x10_S10x758_S1024x758_1_0_0_1_n_n_wf : DotDims.WF S1024x10 S10x758 S1024x758 [1] [0] [0] [1] [] []
  dot_S1024x768_S768x95000_S1024x95000_1_0_0_1_n_n_wf : DotDims.WF S1024x768 S768x95000 S1024x95000 [1] [0] [0] [1] [] []

variable [Facts₀]

def gather_S90000x758_S1024x1_S1024x758_1_0_n_n_0_1_1758 : GatherDims S90000x758 S1024x1 S1024x758 where
  offsetDims := [1]
  collapsedSliceDims := [0]
  operandBatchingDims := []
  startIndicesBatchingDims := []
  startIndexMap := [0]
  indexVectorDim := 1
  sliceSizes := ![1, 758]
  wf := gather_S90000x758_S1024x1_S1024x758_1_0_n_n_0_1_1758_wf
def gather_S90000x10_S1024x1_S1024x10_1_0_n_n_0_1_110 : GatherDims S90000x10 S1024x1 S1024x10 where
  offsetDims := [1]
  collapsedSliceDims := [0]
  operandBatchingDims := []
  startIndicesBatchingDims := []
  startIndexMap := [0]
  indexVectorDim := 1
  sliceSizes := ![1, 10]
  wf := gather_S90000x10_S1024x1_S1024x10_1_0_n_n_0_1_110_wf
def dot_S1024x10_S10x758_S1024x758_1_0_0_1_n_n : DotDims S1024x10 S10x758 S1024x758 where
  lhsContracting := [1]
  rhsContracting := [0]
  lhsNonContracting := [0]
  rhsNonContracting := [1]
  lhsBatch := []
  rhsBatch := []
  wf := dot_S1024x10_S10x758_S1024x758_1_0_0_1_n_n_wf
def dot_S1024x768_S768x95000_S1024x95000_1_0_0_1_n_n : DotDims S1024x768 S768x95000 S1024x95000 where
  lhsContracting := [1]
  rhsContracting := [0]
  lhsNonContracting := [0]
  rhsNonContracting := [1]
  lhsBatch := []
  rhsBatch := []
  wf := dot_S1024x768_S768x95000_S1024x95000_1_0_0_1_n_n_wf

class Facts : Prop extends Facts₀ where

variable [Facts]
-- ==== Proof.KernelTile.lean ====
/-
  The kernel body of `Kernel` on whole staging memrefs: it loads the activation block (1024 × 768) and the weight tile
  (768 × 1536) whole, multiplies them, and stores the product (1024 × 1536) whole into the result tile; the load of
  the result tile before the store is dead. So from any contents `x`, `w` of the two input tiles and anything in
  the result tile, the body ends with the inputs as they were and the result tile at the body's one payload of
  `x` and `w`. Stated at any float instance.
-/
import proofs.«153893_j63239098466878_1_alg».proof.Proof.Gen.Kernel.Frame
import proofs.«153893_j63239098466878_1_alg».proof.Proof.Gen.Kernel.Skeleton
import Idealize.ShloMosaic.Lib.Pipeline.Value

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three accesses are the whole tiles: offsets zero, the tiles' own extents. -/
abbrev rAct : Rect S1024x768 := Rect.unit (s := S1024x768) ![0, 0] S1024x768.size inb_S1024x768_S1024x768_0_0
abbrev rWgt : Rect S768x1536 := Rect.unit (s := S768x1536) ![0, 0] S768x1536.size inb_S768x1536_S768x1536_0_0
abbrev rOut : Rect S1024x1536 := Rect.unit (s := S1024x1536) ![0, 0] S1024x1536.size inb_S1024x1536_S1024x1536_0_0

theorem zeros2 : (![0, 0] : Fin 2 → Nat) = fun _ => 0 := funext fun a => by fin_cases a <;> rfl

/-- What the one store leaves in the result tile, as the list of its pieces read back. -/
def outTile (x : Vec F S1024x768 .bf16) (w : Vec F S768x1536 .f32) : Vec F S1024x1536 .f32 :=
  View.canon [⟨rOut, k0_pay1 (View.ld x rAct) (View.ld w rWgt)⟩]

/-- The one piece is the whole tile, and the loads read the whole tiles: the result tile holds the payload. -/
theorem outTile_eq (x : Vec F S1024x768 .bf16) (w : Vec F S768x1536 .f32) : outTile x w = k0_pay1 x w := by
  unfold outTile
  rw [View.canon_unit_zero zeros2, View.ld_unit_zero zeros2, View.ld_unit_zero zeros2]

theorem outCover (p : Vec F S1024x1536 .f32) (y : S1024x1536.Idx) :
    ∃ pc ∈ ([⟨rOut, p⟩] : List (View.Piece (Elt F) S1024x1536 .f32)), y ∈ pc.1.set :=
  ⟨⟨rOut, p⟩, List.mem_singleton_self _, View.mem_set_unit_zero zeros2 inb_S1024x1536_S1024x1536_0_0 y⟩

set_option maxHeartbeats 1000000 in
/-- The body's triple on any whole staging memrefs. -/
theorem sound_kernel (c : Dev nD) (E : Set ℕ) (i : grid0.Coords)
    (arg1 : Memref sig .tc .vmem S1024x768 .bf16) (harg1 : arg1.IsWhole)
    (arg2 : Memref sig .tc .vmem S768x1536 .f32) (harg2 : arg2.IsWhole)
    (arg3 : Memref sig .tc .vmem S1024x1536 .f32) (harg3 : arg3.IsWhole)
    (x : Vec F S1024x768 .bf16) (w : Vec F S768x1536 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (k0_pay1 x w)) -∗ K ⟨⟩))
      ⊢ wp frame (wpE (defs₀ (F := F)) Variants.none c none) E (cc0__reverse_matmul_kernel i arg1 harg1 arg2 harg2 arg3 harg3) K := by
  simp only [cc0__reverse_matmul_kernel_eq_skeleton]; unfold cc0__reverse_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (outCover _)).trans (outTile_eq _ _)

end Cert.Kernel.Tile

end
-- ==== Proof.KernelFrame.lean ====
/-
  The frame of `Kernel`: @main runs to its end without a fault and leaves its six argument arrays as launched.

  The last weight tile overhangs the weight array's end (95000 columns in tiles of 1536: tile 61 has 1304 of them
  inside), so after its clipped fetch the staging buffer's last 232 columns hold words nothing names, and the
  product computed from them lands in the result tile's last 232 columns, which the clipped write-back never moves.
  The frame needs none of these contents: the body takes no branch, address or amount from a loaded word. So the
  proof data here are relational and say nothing of what the body leaves in any staging buffer; the body obligation
  is the bare run of the body from arbitrary contents. The weight array is an input window's array, never written;
  the other five arguments bypass the region.
-/
import proofs.«153893_j63239098466878_1_alg».proof.Proof.KernelTile

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Relational proof data that constrain nothing: the arrays as the region finds them, any contents left in any
    staging buffer, the class invariant, nothing owed, full shares. -/
def loose (c : Dev nD) : RDat τ (Elt F) Unit ℕ (UR sig nD τ) ℕ (cfgs 0) c where
  A w := V m c (Pipeline.arrRef spec0 w)
  after _ _ _ _ := True
  Φ _ := Pipeline.ΦA spec0 c
  q _ := fullShare
  owed _ := 0

/-- What the body is handed at point `t`: the three current staging buffers at any contents `Y`. -/
def handed (c : Dev nD) (t : Fin cfg0.N) (Y : (w : Fin cfg0.W) → (cfg0.win w).block.Idx → Elt F (cfg0.win w).elt) : sProp 𝕄 :=
  iprop((loose m c).Φ t.castSucc ∗ (loose m c).owesAt () t.castSucc
    ∗ owns (c : Thread nD τ) (st0_0 t) fullShare (Y 0)
    ∗ owns (c : Thread nD τ) (st0_1 t) fullShare (Y 1)
    ∗ owns (c : Thread nD τ) (st0_2 t) fullShare (Y 2))

/-- What it hands back: each buffer at some contents. -/
def handedBack (c : Dev nD) (t : Fin cfg0.N) (Y : (w : Fin cfg0.W) → (cfg0.win w).block.Idx → Elt F (cfg0.win w).elt) : sProp 𝕄 :=
  iprop((loose m c).Φ t.succ ∗ (loose m c).owesAt () t.succ
    ∗ (∃ X, ⌜(loose m c).after 0 t (Y 0) X⌝ ∗ owns (c : Thread nD τ) (st0_0 t) fullShare X)
    ∗ (∃ X, ⌜(loose m c).after 1 t (Y 1) X⌝ ∗ owns (c : Thread nD τ) (st0_1 t) fullShare X)
    ∗ (∃ X, ⌜(loose m c).after 2 t (Y 2) X⌝ ∗ owns (c : Thread nD τ) (st0_2 t) fullShare X))

theorem runs_body (c : Dev nD) (t : Fin cfg0.N) (Y : (w : Fin cfg0.W) → (cfg0.win w).block.Idx → Elt F (cfg0.win w).elt) :
    handed m c t Y ⊢ wp frame (wpE (defs₀ (F := F)) Variants.none c none) Set.univ (bodyAt0 t) (fun _ => handedBack m c t Y) := by
  unfold handed handedBack bodyAt0
  rw [show (loose m c).Φ t.succ = (loose m c).Φ t.castSucc from rfl,
    show (loose m c).owesAt () t.succ = (loose m c).owesAt () t.castSucc from rfl]
  iintro ⟨HΦ, Ho, H0, H1, H2⟩
  iapply (sound_kernel c Set.univ (grid0.coords t) _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists _; isplitr
    swap; · iexact H0
    ipureintro; trivial
  isplitl [H1]
  · iexists _; isplitr
    swap; · iexact H1
    ipureintro; trivial
  · iexists _; isplitr
    swap; · iexact H2
    ipureintro; trivial

theorem loose_obligation (c : Dev nD) : (loose m c).BodyObligation (defs₀ (F := F)) Variants.none () Set.univ := fun t Y _ => by
  rw [bigSep_W0, bigSep_W0]
  exact runs_body m c t Y

theorem loose_share (c : Dev nD) (w : Fin cfg0.W) : (loose m c).share w = fullShare := by
  unfold RDat.share; split <;> rfl

set_option backward.isDefEq.respectTransparency.types false in
/-- Every weakly fair execution of @main terminates; the windows' arrays end at contents the relational data allow
    (an input's: its entry contents) and every bypassing buffer as the region found it. -/
theorem loose_run : θ_run defs (onTc (τ := τ) (main (F := F))) (s₀ m ρ) (Pipeline.RDat.FramePost (cfgs 0) (loose m) (V m)) :=
  Pipeline.RDat.θ_run_frame cfgs (0 : Fin 1) launch0 defs₀ Variants.none (loose m) m ρ main
    (hbody := loose_obligation m) (hshare := loose_share m)
    (howed := fun _ _ => rfl) (V := V m) (hmain := hmain m Variants.none) (hA := fun _ _ => rfl) (hΦ := fun _ _ => rfl)

/-- The frame claim's post: the five arguments no window stages are read off the bypassing buffers, the weight array
    off its input window. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c (1 : Fin 3) rfl).trans (V_main_arg5 m c)⟩) (loose_run m ρ)

end Cert.Kernel.Tile

end
-- ==== Proof.KernelIdealTile.lean ====
/-
  The kernel body of `KernelIdeal` on whole staging memrefs: it loads the activation block (1024 × 768) and the weight tile
  (768 × 1536) whole, multiplies them, and stores the product (1024 × 1536) whole into the result tile; the load of
  the result tile before the store is dead. So from any contents `x`, `w` of the two input tiles and anything in
  the result tile, the body ends with the inputs as they were and the result tile at the body's one payload of
  `x` and `w`. Stated at any float instance.
-/
import proofs.«153893_j63239098466878_1_alg».proof.Proof.Gen.KernelIdeal.Frame
import proofs.«153893_j63239098466878_1_alg».proof.Proof.Gen.KernelIdeal.Skeleton
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three accesses are the whole tiles: offsets zero, the tiles' own extents. -/
abbrev rAct : Rect S1024x768 := Rect.unit (s := S1024x768) ![0, 0] S1024x768.size inb_S1024x768_S1024x768_0_0
abbrev rWgt : Rect S768x1536 := Rect.unit (s := S768x1536) ![0, 0] S768x1536.size inb_S768x1536_S768x1536_0_0
abbrev rOut : Rect S1024x1536 := Rect.unit (s := S1024x1536) ![0, 0] S1024x1536.size inb_S1024x1536_S1024x1536_0_0

theorem zeros2 : (![0, 0] : Fin 2 → Nat) = fun _ => 0 := funext fun a => by fin_cases a <;> rfl

/-- What the one store leaves in the result tile, as the list of its pieces read back. -/
def outTile (x : Vec F S1024x768 .bf16) (w : Vec F S768x1536 .f32) : Vec F S1024x1536 .f32 :=
  View.canon [⟨rOut, k0_pay1 (View.ld x rAct) (View.ld w rWgt)⟩]

/-- The one piece is the whole tile, and the loads read the whole tiles: the result tile holds the payload. -/
theorem outTile_eq (x : Vec F S1024x768 .bf16) (w : Vec F S768x1536 .f32) : outTile x w = k0_pay1 x w := by
  unfold outTile
  rw [View.canon_unit_zero zeros2, View.ld_unit_zero zeros2, View.ld_unit_zero zeros2]

theorem outCover (p : Vec F S1024x1536 .f32) (y : S1024x1536.Idx) :
    ∃ pc ∈ ([⟨rOut, p⟩] : List (View.Piece (Elt F) S1024x1536 .f32)), y ∈ pc.1.set :=
  ⟨⟨rOut, p⟩, List.mem_singleton_self _, View.mem_set_unit_zero zeros2 inb_S1024x1536_S1024x1536_0_0 y⟩

set_option maxHeartbeats 1000000 in
/-- The body's triple on any whole staging memrefs. -/
theorem sound_kernel (c : Dev nD) (E : Set ℕ) (i : grid0.Coords)
    (arg1 : Memref sig .tc .vmem S1024x768 .bf16) (harg1 : arg1.IsWhole)
    (arg2 : Memref sig .tc .vmem S768x1536 .f32) (harg2 : arg2.IsWhole)
    (arg3 : Memref sig .tc .vmem S1024x1536 .f32) (harg3 : arg3.IsWhole)
    (x : Vec F S1024x768 .bf16) (w : Vec F S768x1536 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (k0_pay1 x w)) -∗ K ⟨⟩))
      ⊢ wp frame (wpE (defs₀ (F := F)) Variants.none c none) E (cc0__reverse_matmul_kernel i arg1 harg1 arg2 harg2 arg3 harg3) K := by
  simp only [cc0__reverse_matmul_kernel_eq_skeleton]; unfold cc0__reverse_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (outCover _)).trans (outTile_eq _ _)

end Cert.KernelIdeal.Tile

end
-- ==== Proof.LibPlainMatmul.lean ====
/-
  Two general facts about vector operations read at an entry, at the ideal instance (floats are extended reals).

  * A plain `M × K` by `K × N` matrix product on the matrix unit into a zero accumulator, read at entry `(r, c)`,
    is the sum over `k` of `x[r, k] · w[k, c]`: the unit's dimension numbers contract the left operand's second axis
    with the right operand's first, so re-indexing the one-axis contraction by its coordinate gives the textbook sum.
  * A column (`[a, 1]`) broadcast to `[a, b]`, read at `(p, c)`, is the column's entry at row `p`.
-/
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The left operand's row coordinate is the result's row coordinate. -/
theorem plain_lhs_row (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the result's column coordinate. -/
theorem plain_rhs_col (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain matrix product into a zero accumulator, read at an entry, is the sum over the contracted index of the
    operands' products. -/
theorem plain_matmul_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    FloatOps.matmul (DotDims.plain M K N) prec x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs_row M K N _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact plain_rhs_col M K N _ _)
  rw [el, er]
  rfl

/-- A column broadcast over a row axis: an `[a, 1]` array broadcast to `[a, b]` reads, at `(p, c)`, the column's
    entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gnn

end
-- ==== Proof.KernelIdealTileAt.lean ====
/-
  The idealized kernel's tile product read at an entry, and where a tile's entries sit in the arrays.

  At the ideal instance the two format changes are the identity and the matrix unit's product into a zero accumulator
  is the plain sum: entry `(p, q)` of the result tile is the sum over `k` of `x[p, k] · w[k, q]`, with `x` the activation
  tile and `w` the weight tile as staged. Grid point `t` stages the whole activation array, columns
  `1536·t ‥ 1536·t + 1535` of the weights and writes back the same columns of the result; at the last point only the
  first 1304 of them lie inside the arrays, and the weight tile's and the result tile's parts inside are the same columns.
-/
import proofs.«153893_j63239098466878_1_alg».proof.Proof.KernelIdealTile
import proofs.«153893_j63239098466878_1_alg».proof.Proof.LibPlainMatmul
import Idealize.ShloMosaic.Lib.Pipeline.Value
import Idealize.ShloMosaic.Lib.ValueIdx

set_option maxRecDepth 16384

noncomputable section

open scoped BigOperators

namespace Cert.KernelIdeal.Tile

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The tile product at an entry: the plain sum over the contracted axis. -/
theorem tile_apply (x : Vec Ideal S1024x768 .bf16) (w : Vec Ideal S768x1536 .f32) (p : Fin 1024) (q : Fin 1536) :
    k0_pay1 (F := Ideal) x w (ix2 p q) = ∑ k : Fin 768, x (ix2 p k) * w (ix2 k q) := by
  unfold k0_pay1
  rw [shapeCast_self]
  exact Cert.Gnn.plain_matmul_apply 1024 768 1536 none x w (ix2 p q)

/-- Where the three windows' blocks sit, decided over the 62 grid points: the activation block is the whole array;
    the weight block and the result block at point `t` start at column `1536·t`, are cut alike, and end inside. -/
theorem grid_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_1.xsize (grid0.coords t) (0 : Fin 2) = 768
    ∧ win0_2.xsize (grid0.coords t) (0 : Fin 2) = 1024
    ∧ win0_1.xsize (grid0.coords t) (1 : Fin 2) = win0_2.xsize (grid0.coords t) (1 : Fin 2)
    ∧ t.val * 1536 + win0_2.xsize (grid0.coords t) (1 : Fin 2) ≤ 95000 :=
  (by decide +kernel : ∀ t : Fin grid0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_1.xsize (grid0.coords t) (0 : Fin 2) = 768
    ∧ win0_2.xsize (grid0.coords t) (0 : Fin 2) = 1024
    ∧ win0_1.xsize (grid0.coords t) (1 : Fin 2) = win0_2.xsize (grid0.coords t) (1 : Fin 2)
    ∧ t.val * 1536 + win0_2.xsize (grid0.coords t) (1 : Fin 2) ≤ 95000)

/-- The result blocks reach the array's end: block `t`'s part inside the array ends at column `min (1536·(t+1)) 95000`. -/
theorem out_reach : ∀ t : Fin cfg0.N, min ((t.val + 1) * 1536) 95000 ≤ t.val * 1536 + win0_2.xsize (grid0.coords t) (1 : Fin 2) :=
  (by decide +kernel : ∀ t : Fin grid0.N, min ((t.val + 1) * 1536) 95000 ≤ t.val * 1536 + win0_2.xsize (grid0.coords t) (1 : Fin 2))

/-! ## A block read in its array, for any contents of the array -/

theorem at_origin (s z : Nat) : 0 * s + 1 * z = z := by omega
theorem at_column (a z : Nat) : a * 1536 + 1 * z = a * 1536 + z := by omega

/-- The activation block is the whole activation array. -/
theorem act_read (A : S1024x768.Idx → Elt Ideal .bf16) (t : Fin cfg0.N) (p : Fin 1024) (k : Fin 768) :
    (win0_0.blk t).view.read (Elt Ideal) A (ix2 p k) = A (ix2 p k) := by
  obtain ⟨h00, h01, -⟩ := grid_facts t
  show A ((win0_0.blk t).view.emb (ix2 p k)) = A (ix2 p k)
  refine congrArg A (funext fun a => Fin.ext ?_)
  match a with
  | ⟨0, _⟩ => show win0_0.index t (0 : Fin 2) * 1024 + 1 * p.val = p.val; rw [h00]; exact at_origin _ _
  | ⟨1, _⟩ => show win0_0.index t (1 : Fin 2) * 768 + 1 * k.val = k.val; rw [h01]; exact at_origin _ _

/-- The weight block's part inside the array at point `t`: row `k`, column `1536·t + q` of the weights. -/
theorem wgt_read (A : S768x95000.Idx → Elt Ideal .f32) (t : Fin cfg0.N) (y : (win0_1.xblock (grid0.coords t)).Idx)
    (k : Fin 768) (n : Fin 95000) (hk : (y 0).val = k.val) (hn : t.val * 1536 + (y 1).val = n.val) :
    (win0_1.blk t).view.read (Elt Ideal) A y = A (ix2 k n) := by
  obtain ⟨-, -, h10, h11, -⟩ := grid_facts t
  show A ((win0_1.blk t).view.emb y) = A (ix2 k n)
  refine congrArg A (funext fun a => Fin.ext ?_)
  match a with
  | ⟨0, _⟩ => show win0_1.index t (0 : Fin 2) * 768 + 1 * (y 0).val = k.val; rw [h10, hk]; exact at_origin _ _
  | ⟨1, _⟩ => show win0_1.index t (1 : Fin 2) * 1536 + 1 * (y 1).val = n.val; rw [h11, ← hn]; exact at_column _ _

/-- The result block's part inside the array at point `t`: row `p`, column `1536·t + q` of the result. -/
theorem out_read (A : S1024x95000.Idx → Elt Ideal .f32) (t : Fin cfg0.N) (j : (win0_2.xblock (grid0.coords t)).Idx)
    (p : Fin 1024) (n : Fin 95000) (hp : (j 0).val = p.val) (hn : t.val * 1536 + (j 1).val = n.val) :
    (win0_2.blk t).view.read (Elt Ideal) A j = A (ix2 p n) := by
  obtain ⟨-, -, -, -, h20, h21, -⟩ := grid_facts t
  show A ((win0_2.blk t).view.emb j) = A (ix2 p n)
  refine congrArg A (funext fun a => Fin.ext ?_)
  match a with
  | ⟨0, _⟩ => show win0_2.index t (0 : Fin 2) * 1024 + 1 * (j 0).val = p.val; rw [h20, hp]; exact at_origin _ _
  | ⟨1, _⟩ => show win0_2.index t (1 : Fin 2) * 1536 + 1 * (j 1).val = n.val; rw [h21, ← hn]; exact at_column _ _

end Cert.KernelIdeal.Tile

end
-- ==== Proof.LibHostDot.lean ====
/-
  A plain `M × K` by `K × N` product on the host (`stablehlo.dot_general`, the left operand's second axis contracted with
  the right operand's first), read at an entry at the ideal instance (floats are extended reals): the sum over `k` of
  `x[p, k] · w[k, q]`. The one-axis contraction index is re-indexed by its coordinate.
-/
import proofs.«153893_j63239098466878_1_alg».proof.Proof.LibPlainMatmul
import Idealize.ShloMosaic.PureOps.Ideal.Laws
import Idealize.ShloMosaic.Lib.ValueIdx

noncomputable section

open scoped BigOperators

namespace Cert.HostDot

open Idealize.ShloMosaic Idealize.ShloMosaic.ValueIdx

/-- A plain host product at explicit coordinates, for any dimension record equal to the plain one. -/
theorem dotGeneral_ix2 {φ₁ φ₂ : FTy} {M K N : ℕ} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (p : Fin M) (q : Fin N) :
    Host.dotGeneral d prec x w (ix2 p q) = ∑ k : Fin K, x (ix2 p k) * w (ix2 k q) := by
  subst hd
  show FloatOps.dotGeneral (DotDims.plain M K N) prec .single x w (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact Cert.Gnn.plain_lhs_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact Cert.Gnn.plain_rhs_col M K N _ _)
  rw [el, er]

end Cert.HostDot

end
-- ==== Proof.Logits.lean ====
/-
  The function both programs compute: the reverse-embedding product. With `x` the 1024 × 768 activations and `w` the
  768 × 95000 weights, entry `(t, n)` of the result is the sum over `k` of `x[t, k] · w[k, n]` on the extended reals.
  Two readings of it: the host's one product over the whole arrays, and the matrix unit's product of the activations
  with one 1536-column tile of the weights, whose entry `(p, q)` is the same sum with `w` read inside the tile.
-/
import proofs.«153893_j63239098466878_1_alg».proof.Proof.LibPlainMatmul
import proofs.«153893_j63239098466878_1_alg».proof.Proof.LibHostDot
import Idealize.ShloMosaic.PureOps.Ideal.Laws
import Idealize.ShloMosaic.Lib.ValueIdx

noncomputable section

open scoped BigOperators

namespace Cert.Logits

open Idealize.ShloMosaic Idealize.ShloMosaic.ValueIdx

/-- `logits[t, n] = Σ_k x[t, k] · w[k, n]`. -/
def logits (x : (⟨2, ![1024, 768]⟩ : Shape).Idx → EReal) (w : (⟨2, ![768, 95000]⟩ : Shape).Idx → EReal) :
    (⟨2, ![1024, 95000]⟩ : Shape).Idx → EReal :=
  fun i => ∑ k : Fin 768, x (ix2 (i 0) k) * w (ix2 k (i 1))

theorem logits_apply (x : (⟨2, ![1024, 768]⟩ : Shape).Idx → EReal) (w : (⟨2, ![768, 95000]⟩ : Shape).Idx → EReal)
    (p : Fin 1024) (n : Fin 95000) : logits x w (ix2 p n) = ∑ k : Fin 768, x (ix2 p k) * w (ix2 k n) := rfl

/-- The host's product of the whole arrays is `logits`. -/
theorem host_dot_eq (d : DotDims ⟨2, ![1024, 768]⟩ ⟨2, ![768, 95000]⟩ ⟨2, ![1024, 95000]⟩)
    (hd : d = DotDims.plain 1024 768 95000) (prec : Option ContractPrecision)
    (x : FVec Ideal ⟨2, ![1024, 768]⟩ .f32) (w : FVec Ideal ⟨2, ![768, 95000]⟩ .f32) :
    Host.dotGeneral d prec x w = logits x w := by
  funext i
  obtain ⟨p, n, rfl⟩ : ∃ (p : Fin 1024) (n : Fin 95000), i = ix2 p n := ⟨i 0, i 1, eq_ix2 i⟩
  exact Cert.HostDot.dotGeneral_ix2 d hd prec x w p n

end Cert.Logits

end
-- ==== Proof.KernelIdealTileEq.lean ====
/-
  The tile equation. At grid point `t`, with the activation tile the block of activations `X` and the weight tile the
  block of weights `W` on its part inside the array and ANY contents `d` past it, the tile product agrees, on the part
  of the result tile inside the result array, with the same block of `logits X W`: entry `(p, q)` sums over the 768
  rows of the weight tile at column `q`, a column inside the array, where the tile holds `W[k, 1536·t + q]`.
-/
import proofs.«153893_j63239098466878_1_alg».proof.Proof.KernelIdealTileAt
import proofs.«153893_j63239098466878_1_alg».proof.Proof.Logits

set_option maxRecDepth 16384

noncomputable section

open scoped BigOperators

namespace Cert.KernelIdeal.Tile

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem tile_eq (X : S1024x768.Idx → Elt Ideal .bf16) (W : S768x95000.Idx → Elt Ideal .f32) (t : Fin cfg0.N)
    (d : S768x1536.Idx → Elt Ideal .f32) (j : (win0_2.xblock (grid0.coords t)).Idx) :
    k0_pay1 (F := Ideal) ((win0_0.blk t).view.read (Elt Ideal) X)
        (win0_1.fill (grid0.coords t) d ((win0_1.blk t).view.read (Elt Ideal) W)) (win0_2.xinj (grid0.coords t) j)
      = (win0_2.blk t).view.read (Elt Ideal) (Cert.Logits.logits X W) j := by
  obtain ⟨-, -, -, -, -, -, h1x0, h2x0, h12, hend⟩ := grid_facts t
  have hj0' : (j 0).val < win0_2.xsize (grid0.coords t) (0 : Fin 2) := (j 0).isLt
  have hj1' : (j 1).val < win0_2.xsize (grid0.coords t) (1 : Fin 2) := (j 1).isLt
  have hle : win0_2.xsize (grid0.coords t) (1 : Fin 2) ≤ 1536 := win0_2.xsize_le (grid0.coords t) (1 : Fin 2)
  have hj0 : (j 0).val < 1024 := by omega
  have hj1 : (j 1).val < 1536 := by omega
  have hn : t.val * 1536 + (j 1).val < 95000 := by omega
  -- the entry's coordinates in the tile and in the result array
  have hx : win0_2.xinj (grid0.coords t) j = ix2 (⟨(j 0).val, hj0⟩ : Fin 1024) (⟨(j 1).val, hj1⟩ : Fin 1536) :=
    funext fun a => match a with
      | ⟨0, _⟩ => rfl
      | ⟨1, _⟩ => rfl
  rw [hx, tile_apply,
    out_read (Cert.Logits.logits X W) t j ⟨(j 0).val, hj0⟩ ⟨t.val * 1536 + (j 1).val, hn⟩ rfl rfl,
    Cert.Logits.logits_apply]
  refine Finset.sum_congr rfl fun k _ => ?_
  -- the weight tile at row `k`, column `q`: a column inside the array, so the block's entry there
  have hy0 : k.val < win0_1.xsize (grid0.coords t) (0 : Fin 2) := by rw [h1x0]; exact k.isLt
  have hy1 : (j 1).val < win0_1.xsize (grid0.coords t) (1 : Fin 2) := by rw [h12]; exact hj1'
  have hy : win0_1.xinj (grid0.coords t) (fun a => match a with
        | ⟨0, _⟩ => ⟨k.val, hy0⟩
        | ⟨1, _⟩ => ⟨(j 1).val, hy1⟩)
      = ix2 k (⟨(j 1).val, hj1⟩ : Fin 1536) :=
    funext fun a => match a with
      | ⟨0, _⟩ => rfl
      | ⟨1, _⟩ => rfl
  rw [act_read X t ⟨(j 0).val, hj0⟩ k, ← hy, Window.fill_xinj,
    wgt_read W t _ k ⟨t.val * 1536 + (j 1).val, hn⟩ rfl rfl]

end Cert.KernelIdeal.Tile

end
-- ==== Proof.KernelIdealRun.lean ====
/-
  The idealized kernel's run with its result array named.

  Proof data, per grid point `t`: the activation tile holds the whole activation array; the weight tile holds columns
  `1536·t ‥` of the weights on its part inside the array (all 1536 columns, or 1304 at the last point) and is not
  described past it; the result tile holds, on the same part, those columns of `answer` — the product of the
  activations with the whole weight array — and is not described past it. The body obligation is the tile equation:
  whatever the weight tile holds past the array's end, the tile product's columns inside the array are `answer`'s,
  because the contracted axis is the tile's 768 rows, none of which is cut. The write-backs cover the result array,
  each with its columns of `answer`, so the array ends holding `answer`.
-/
import proofs.«153893_j63239098466878_1_alg».proof.Proof.KernelIdealTileEq

set_option maxRecDepth 16384

noncomputable section

open scoped BigOperators

namespace Cert.KernelIdeal.Tile

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The activations and the weights as the region finds them, and the product of the two whole arrays. -/
def act (c : Dev nD) : S1024x768.Idx → Elt Ideal .bf16 := V m c main_v22
def wgt (c : Dev nD) : S768x95000.Idx → Elt Ideal .f32 := V m c main_arg5
def answer (c : Dev nD) : S1024x95000.Idx → Elt Ideal .f32 := Cert.Logits.logits (act m c) (wgt m c)

/-- Point `t`'s blocks of the three arrays (the parts inside the arrays). -/
def actBlk (c : Dev nD) (t : Fin cfg0.N) : S1024x768.Idx → Elt Ideal .bf16 :=
  (win0_0.blk t).view.read (Elt Ideal) (act m c)
def wgtBlk (c : Dev nD) (t : Fin cfg0.N) : (win0_1.xblock (grid0.coords t)).Idx → Elt Ideal .f32 :=
  (win0_1.blk t).view.read (Elt Ideal) (wgt m c)
def answerBlk (c : Dev nD) (t : Fin cfg0.N) : (win0_2.xblock (grid0.coords t)).Idx → Elt Ideal .f32 :=
  (win0_2.blk t).view.read (Elt Ideal) (answer m c)

/-- The two clipped tiles as the proof data name them: the block inside the array, the zero word past it (a filler the
    obligations never read). -/
def wgtTile (c : Dev nD) (t : Fin cfg0.N) : S768x1536.Idx → Elt Ideal .f32 :=
  win0_1.fill (grid0.coords t) (fun _ => FloatOps.ofBits (F := Ideal) .f32 0#32) (wgtBlk m c t)
def answerTile (c : Dev nD) (t : Fin cfg0.N) : S1024x1536.Idx → Elt Ideal .f32 :=
  win0_2.fill (grid0.coords t) (fun _ => FloatOps.ofBits (F := Ideal) .f32 0#32) (answerBlk m c t)

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wgtTile m c t
    | ⟨2, _⟩ => answerTile m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_act (c : Dev nD) (t : Fin cfg0.N) : (dats m 0 c).after 0 t = iblk m c 0 t := by dsimp only [dats]
theorem after_wgt (c : Dev nD) (t : Fin cfg0.N) : (dats m 0 c).after 1 t = wgtTile m c t := by dsimp only [dats]
theorem after_out (c : Dev nD) (t : Fin cfg0.N) : (dats m 0 c).after 2 t = answerTile m c t := by dsimp only [dats]

theorem iblk_act (c : Dev nD) (t : Fin cfg0.N) : iblk m c 0 t = actBlk m c t := by
  unfold iblk actBlk act; rfl

/-! ## What the body finds -/

theorem before_act (c : Dev nD) (t : Fin cfg0.N) (d) : (dats m 0 c).before 0 t d = actBlk m c t :=
  (before0_0_of m (dats m 0 c) (A_eq m c 0) (after_act m c) t d).trans (iblk_act m c t)

theorem before_wgt (c : Dev nD) (t : Fin cfg0.N) (d) :
    (dats m 0 c).before 1 t d = win0_1.fill (grid0.coords t) d (wgtBlk m c t) := by
  rw [(dats m 0 c).before_fetched 1 t (fetch0_1 t) d]
  unfold Dat.fetched Dat.blockOf wgtBlk wgt
  rw [A_eq]

theorem before_out (c : Dev nD) (t : Fin cfg0.N) (d) : (dats m 0 c).before 2 t d = d :=
  (dats m 0 c).before_out_reset 2 rfl t
    (by by_cases h : t.val = 0
        · exact .inl h
        · exact .inr ⟨h, flush0_2 _⟩) d

/-! ## The tile equation at the proof data's blocks -/

theorem cut_product (c : Dev nD) (t : Fin cfg0.N) (d : S768x1536.Idx → Elt Ideal .f32) :
    win0_2.cut (grid0.coords t) (k0_pay1 (F := Ideal) (actBlk m c t) (win0_1.fill (grid0.coords t) d (wgtBlk m c t)))
      = answerBlk m c t :=
  funext fun j => tile_eq (act m c) (wgt m c) t d j

/-! ## The body obligation -/

/-- What the body is handed at point `t`, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back: the activation tile as named, the two clipped tiles as named on their parts inside the
    arrays. -/
def handedBack (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t)))))

theorem sound_body (c : Dev nD) (t : Fin cfg0.N) :
    handed m c t ⊢ wp frame (wpE (defs₀ (F := Ideal)) Variants.none c none) Set.univ (bodyAt0 t) (fun _ => handedBack m c t) := by
  unfold handed handedBack bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_act m c t d0, before_wgt m c t d1, before_out m c t d2]
  iapply (sound_kernel (F := Ideal) c Set.univ (grid0.coords t) _ _ _ _ _ _ (actBlk m c t)
    (win0_1.fill (grid0.coords t) d1 (wgtBlk m c t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · rw [after_act, iblk_act]; iexact H0
  isplitl [H1]
  · iexists d1
    rw [after_wgt]; unfold wgtTile; rw [Window.cut_fill]
    iexact H1
  · iexists (k0_pay1 (F := Ideal) (actBlk m c t) (win0_1.fill (grid0.coords t) d1 (wgtBlk m c t)))
    rw [after_out]; unfold answerTile
    rw [Window.cut_fill, ← cut_product m c t d1, Window.fill_cut]
    iexact H2

theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

end Cert.KernelIdeal.Tile

end
-- ==== Proof.KernelIdealValue.lean ====
/-
  The idealized kernel's result array after the run is `answer`: every write-back writes its columns of `answer`, and
  column `n` of the result lies in the block of point `n / 1536` (62 points reach column 95000: the last block's part
  inside the array ends exactly there). With it, the kernel's run states its result and its unchanged arguments.
-/
import proofs.«153893_j63239098466878_1_alg».proof.Proof.KernelIdealRun

set_option maxRecDepth 16384

noncomputable section

open scoped BigOperators

namespace Cert.KernelIdeal.Tile

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- What point `t` writes back is its block of `answer`. -/
theorem flushed_eq (c : Dev nD) (t : Fin cfg0.N) :
    (dats m 0 c).flushed 2 t = ((cfg0.win 2).blk t).view.read (Elt Ideal) (answer m c) := by
  show (cfg0.win 2).cut (grid0.coords t) ((dats m 0 c).after 2 t) = _
  rw [after_out]; unfold answerTile
  rw [Window.cut_fill]
  rfl

/-- An entry of the result array is in point `t`'s block iff each coordinate is in the block's part inside the array. -/
theorem mem_blk (t : Fin cfg0.N) (i : S1024x95000.Idx) :
    i ∈ ((cfg0.win 2).blk t).view.set ↔ ∀ a : Fin 2, win0_2.index t a * S1024x1536.size a ≤ (i a).val
      ∧ (i a).val < win0_2.index t a * S1024x1536.size a + win0_2.xsize (grid0.coords t) a := by
  show i ∈ ((View.whole main_v23).slice (win0_2.rect t)).set ↔ _
  rw [View.set_slice_whole, Rect.mem_set_unit]
  exact Iff.rfl

/-- Every entry is in some written-back block: column `n` in that of point `n / 1536`. -/
theorem covered (i : S1024x95000.Idx) :
    ∃ t : Fin cfg0.N, (cfg0.win 2).flush t = true ∧ i ∈ ((cfg0.win 2).blk t).view.set := by
  have hi0 : (i 0).val < 1024 := (i 0).isLt
  have hi1 : (i 1).val < 95000 := (i 1).isLt
  have hN : cfg0.N = 62 := N_0
  obtain ⟨t, ht⟩ : ∃ t : Fin cfg0.N, t.val = (i 1).val / 1536 := ⟨⟨(i 1).val / 1536, by rw [hN]; omega⟩, rfl⟩
  obtain ⟨-, -, -, -, h20, h21, -, h2x0, -, -⟩ := grid_facts t
  have hr := out_reach t
  have g0 : win0_2.index t (0 : Fin 2) * 1024 ≤ (i 0).val
      ∧ (i 0).val < win0_2.index t (0 : Fin 2) * 1024 + win0_2.xsize (grid0.coords t) (0 : Fin 2) := by
    rw [h20, h2x0]; omega
  have g1 : win0_2.index t (1 : Fin 2) * 1536 ≤ (i 1).val
      ∧ (i 1).val < win0_2.index t (1 : Fin 2) * 1536 + win0_2.xsize (grid0.coords t) (1 : Fin 2) := by
    rw [h21]; omega
  refine ⟨t, flush0_2 t, (mem_blk t i).mpr fun a => ?_⟩
  match a with
  | ⟨0, _⟩ => exact g0
  | ⟨1, _⟩ => exact g1

/-- The result array after the last write-back. -/
theorem final_out (c : Dev nD) : (dats m 0 c).arrAt 2 cfg0.N = answer m c :=
  (dats m 0 c).arrAt_eq_of_cover 2 (answer m c) (fun t _ => flushed_eq m c t) covered

/-- The weights are an argument no host operation writes. -/
theorem wgt_eq (c : Dev nD) : wgt m c = m ((c.tc : Thread nD τ).loc main_arg5) := V_main_arg5 m c

/-- Every weakly fair execution of the idealized kernel's @main terminates with the result array at `answer` and the
    arguments as launched. -/
theorem kernel_run : θ_run defs (onTc (τ := τ) (main (F := Ideal))) ⟨m, fun _ => 0, ρ⟩ (fun r => ∀ c : Dev nD,
      r.2.mem ((c.tc : Thread nD τ).loc main_v23) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 2).trans (final_out m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 1).trans (((dats m 0 c).arrAt_in 1 rfl _).trans ((A_eq m c 1).trans (V_main_arg5 m c)))⟩) (run_main m ρ)

/-- The idealized kernel's frame: the same run, the result dropped. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (kernel_run m ρ)

end Cert.KernelIdeal.Tile

end
-- ==== Proof.RefValue.lean ====
/-
  The reference's result is `logits` of its own activations and the weights: its closing `dot_general` contracts the
  activations' second axis with the weights' first, which at the ideal instance is the plain sum over `k`.
-/
import proofs.«153893_j63239098466878_1_alg».proof.Proof.Gen.ReferenceIdeal.Run
import proofs.«153893_j63239098466878_1_alg».proof.Proof.Gen.ReferenceIdeal.Read
import proofs.«153893_j63239098466878_1_alg».proof.Proof.Logits

noncomputable section

namespace Cert.ReferenceIdeal.RefValue

open Cert.ReferenceIdeal Cert.ReferenceIdeal.Gen Idealize.ShloMosaic Idealize.ShloMosaic.TcCoe Idealize.SL.Sem

/-- The reference's activations: the embedding rows gathered at the ids plus the small linear layer's output, joined
    with ten columns of the padding constant. -/
abbrev refAct (x0 : (⟨S1024, .i32⟩ : BufTy).Contents (Elt Ideal)) (x1 : (⟨S90000x758, .f32⟩ : BufTy).Contents (Elt Ideal))
    (x2 : (⟨S90000x10, .f32⟩ : BufTy).Contents (Elt Ideal)) (x3 : (⟨S758x10, .f32⟩ : BufTy).Contents (Elt Ideal))
    (x4 : (⟨S758, .f32⟩ : BufTy).Contents (Elt Ideal)) : S1024x768.Idx → EReal :=
  Read.val_main_v21 (F := Ideal) x0 x1 x2 x3 x4

theorem result_eq (x0 : (⟨S1024, .i32⟩ : BufTy).Contents (Elt Ideal)) (x1 : (⟨S90000x758, .f32⟩ : BufTy).Contents (Elt Ideal))
    (x2 : (⟨S90000x10, .f32⟩ : BufTy).Contents (Elt Ideal)) (x3 : (⟨S758x10, .f32⟩ : BufTy).Contents (Elt Ideal))
    (x4 : (⟨S758, .f32⟩ : BufTy).Contents (Elt Ideal)) (x5 : (⟨S768x95000, .f32⟩ : BufTy).Contents (Elt Ideal)) :
    Read.val_main_v22 (F := Ideal) x0 x1 x2 x3 x4 x5 = Cert.Logits.logits (refAct x0 x1 x2 x3 x4) x5 := by
  unfold Read.val_main_v22
  exact Cert.Logits.host_dot_eq _ rfl none _ _

end Cert.ReferenceIdeal.RefValue

end
-- ==== Proof.Bridge.lean ====
/-
  The two programs meet. Both compute the same activations from the arguments by the same host operations — the ids
  wrapped into range, the two embedding tables gathered at them, the small linear layer, the sum, ten columns of the
  padding constant joined on — and the kernel's extra cast of them to bf16 is the identity at the ideal instance. The
  kernel then multiplies them tile by tile with the weights and the reference in one product: both results are
  `logits` of the same activations and the same weights.
-/
import proofs.«153893_j63239098466878_1_alg».proof.Defs
import proofs.«153893_j63239098466878_1_alg».proof.Proof.Gen.Pre_finite_inputs
import proofs.«153893_j63239098466878_1_alg».proof.Proof.KernelIdealValue
import proofs.«153893_j63239098466878_1_alg».proof.Proof.RefValue
import Idealize.ShloMosaic.Lib.StableHlo.Run

noncomputable section

namespace Cert.Proof.Bridge

open Idealize.ShloMosaic Idealize.ShloMosaic.TcCoe Idealize.SL.Sem Idealize.ShloMosaic.StableHlo

set_option maxHeartbeats 2000000 in
/-- The activations the kernel's region finds are the reference's activations of the same arguments. -/
theorem act_eq (m : (ℓ : Loc Cert.KernelIdeal.nD Cert.KernelIdeal.τ Cert.KernelIdeal.sig) → Buf (Elt Ideal) ℓ)
    (c : Dev Cert.KernelIdeal.nD) :
    Cert.KernelIdeal.Tile.act m c
      = Cert.ReferenceIdeal.RefValue.refAct
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  unfold Cert.KernelIdeal.Tile.act
  dsimp only [Cert.KernelIdeal.Gen.V, Cert.KernelIdeal.Gen.hostOps0]
  after_results
  rfl

/-- The idealized kernel and the idealized reference, from memories agreeing on the arguments, end with the same
    result: `logits` of the shared activations and the weights. -/
theorem algebraic : Cert.algebraic_KernelIdeal_ReferenceIdeal := by
  intro m ρ m' ρ' _ hagree
  refine ⟨fun c => Cert.KernelIdeal.Tile.answer m c, Cert.KernelIdeal.Tile.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5, Cert.ReferenceIdeal.Read.val_main_v22_eq, Cert.ReferenceIdeal.RefValue.result_eq]
  show _ = Cert.KernelIdeal.Tile.answer m c
  unfold Cert.KernelIdeal.Tile.answer
  rw [act_eq m c, Cert.KernelIdeal.Tile.wgt_eq]

end Cert.Proof.Bridge

end
-- ==== Proof.lean ====
/-
  The certificate of the reverse-embedding kernel: activations `x` (1024 × 768: two embedding gathers, a small linear
  layer and ten padding columns, computed on the host and cast to bf16) times the weights `w` (768 × 95000), on the
  matrix unit, 1536 result columns per grid point over 62 points — the last point's tiles overhang the arrays by 232
  columns —, against the reference's one host product `x · w`.

  * The word-level kernel's frame is proved over relational proof data that constrain nothing: no control of the body
    depends on a loaded word, so what the clipped fetch leaves past the weight array's end is never read by the proof.
  * The idealized kernel's run names its result: at the ideal instance the casts are the identity and each tile product
    is the plain sum over the 768 contracted rows, so every column inside the array is independent of the staging
    words past the array's end; the 62 write-backs cover the result with columns of `logits x w`.
  * The reference's run is read back operation by operation; its closing product is `logits` of the same activations.
  * No rewrite of the ideal pass was applied, so `preserves` is trivial.
-/
import proofs.«153893_j63239098466878_1_alg».proof.Defs
import proofs.«153893_j63239098466878_1_alg».proof.Proof.Gen.Kernel
import proofs.«153893_j63239098466878_1_alg».proof.Proof.Gen.KernelIdeal
import proofs.«153893_j63239098466878_1_alg».proof.Proof.Gen.ReferenceIdeal
import proofs.«153893_j63239098466878_1_alg».proof.Proof.Gen.Pre_finite_inputs
import proofs.«153893_j63239098466878_1_alg».proof.Proof.KernelFrame
import proofs.«153893_j63239098466878_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Tile.frame (F := Bits) m ρ

theorem frame_kernel_ideal : Cert.frame_KernelIdeal := fun m ρ _ => Cert.KernelIdeal.Tile.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, Cert.Proof.Bridge.algebraic⟩

end Cert.Proof

end
